-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x49152 : Shape := ⟨2, ![128, 49152]⟩
abbrev S_ : Shape := ⟨0, ![]⟩

class Facts : Prop where
  bcast_S_S128x49152 : S_.BroadcastsInDim S128x49152 (![] : Fin 0 → Fin S128x49152.rank)
  reducesTo_S128x49152_S_d0_1 : S128x49152.ReducesTo [0, 1] S_
  h_S_ : 0 < S_.numel

variable [Facts]

def fn {F : FTy → Type} [FloatOps F] (main_arg0 : FVec F S128x49152 .f32) : IVec S_ 1 :=
  let main_v0 : FVec F S128x49152 .f32 := Host.absf main_arg0
  let main_cst : FVec F S_ .f32 := constant S_ .f32 0x7F800000#32
  let main_v1 : FVec F S128x49152 .f32 := broadcastInDim S128x49152 ![] bcast_S_S128x49152 main_cst
  let main_v2 : IVec S128x49152 1 := cmpf .olt main_v0 main_v1
  let main_c : IVec S_ 1 := constantI S_ 1 1#1
  let main_v3 : IVec S_ 1 := (fun x v => Host.reduce IntOp.andi x v reducesTo_S128x49152_S_d0_1 h_S_) main_v2 main_c
  main_v3
-- ==== Kernel.lean ====
abbrev S128x49152 : Shape := ⟨2, ![128, 49152]⟩
abbrev S384x128x128 : Shape := ⟨3, ![384, 128, 128]⟩
abbrev S384x512x512 : Shape := ⟨3, ![384, 512, 512]⟩
abbrev S2x128x128 : Shape := ⟨3, ![2, 128, 128]⟩
abbrev S2x512x512 : Shape := ⟨3, ![2, 512, 512]⟩
abbrev S2x128x128x1 : Shape := ⟨4, ![2, 128, 128, 1]⟩
abbrev S2x128x128x4 : Shape := ⟨4, ![2, 128, 128, 4]⟩
abbrev S2x128x512 : Shape := ⟨3, ![2, 128, 512]⟩
abbrev S2x128x1x512 : Shape := ⟨4, ![2, 128, 1, 512]⟩
abbrev S2x128x4x512 : Shape := ⟨4, ![2, 128, 4, 512]⟩
abbrev S128x3x512x512 : Shape := ⟨4, ![128, 3, 512, 512]⟩

abbrev nBuf : Space → Nat
  | .hbm => 4
  | .vmem => 4
  | .smem => 0
  | _ => 0

abbrev bufTy : (tb : Table) → Fin (tcTables nBuf tb) → BufTy
  | .hbm, ⟨0, _⟩ => ⟨S128x49152, .f32⟩
  | .hbm, ⟨1, _⟩ => ⟨S384x128x128, .f32⟩
  | .hbm, ⟨2, _⟩ => ⟨S384x512x512, .f32⟩
  | .hbm, ⟨3, _⟩ => ⟨S128x3x512x512, .f32⟩
  | .local _ .vmem, ⟨0, _⟩ => ⟨S2x128x128, .f32⟩
  | .local _ .vmem, ⟨1, _⟩ => ⟨S2x128x128, .f32⟩
  | .local _ .vmem, ⟨2, _⟩ => ⟨S2x512x512, .f32⟩
  | .local _ .vmem, ⟨3, _⟩ => ⟨S2x512x512, .f32⟩
  | _, _ => ⟨S128x49152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![192], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S128x49152_S384x128x128 : S128x49152.ShapeCasts S384x128x128
  inb_S2x128x128_S2x128x128_0_0_0 : ∀ a, (![0, 0, 0] : Fin 3 → Nat) a + S2x128x128.size a ≤ S2x128x128.size a
  h_S2x128x128 : 0 < S2x128x128.numel
  shapeCasts_S2x128x128_S2x128x128 : S2x128x128.ShapeCasts S2x128x128
  shapeCasts_S2x128x128_S2x128x128x1 : S2x128x128.ShapeCasts S2x128x128x1
  shapeCasts_S2x128x128x1_S2x128x128x1 : S2x128x128x1.ShapeCasts S2x128x128x1
  broadcasts_S2x128x128x1_S2x128x128x4 : S2x128x128x1.Broadcasts S2x128x128x4
  shapeCasts_S2x128x128x4_S2x128x512 : S2x128x128x4.ShapeCasts S2x128x512
  shapeCasts_S2x128x512_S2x128x1x512 : S2x128x512.ShapeCasts S2x128x1x512
  shapeCasts_S2x128x1x512_S2x128x1x512 : S2x128x1x512.ShapeCasts S2x128x1x512
  broadcasts_S2x128x1x512_S2x128x4x512 : S2x128x1x512.Broadcasts S2x128x4x512
  shapeCasts_S2x128x4x512_S2x512x512 : S2x128x4x512.ShapeCasts S2x512x512
  inb_S2x512x512_S2x512x512_0_0_0 : ∀ a, (![0, 0, 0] : Fin 3 → Nat) a + S2x512x512.size a ≤ S2x512x512.size a
  h_S2x512x512 : 0 < S2x512x512.numel
  shapeCasts_S384x512x512_S128x3x512x512 : S384x512x512.ShapeCasts S128x3x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x128x128.size a ≤ S384x128x128.size a
  hwx0_0 : ∀ i : grid0.Coords, EltTy.bits .f32 = 32 ∨ (Rect.block (s := S384x128x128) S2x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S384x512x512.size a
  hwx0_1 : ∀ i : grid0.Coords, EltTy.bits .f32 = 32 ∨ (Rect.block (s := S384x512x512) S2x512x512.size (cc0_transform_1 i) (hinb0_1 i)).WholeWords (EltTy.packing .f32)

variable [Facts₀]

abbrev win0_0 : Pipeline.Window sig grid0 :=
  Pipeline.Window.ofSpec (Memref.whole main_v0) S2x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x49152 : Shape := ⟨2, ![128, 49152]⟩
abbrev S128x3x128x128 : Shape := ⟨4, ![128, 3, 128, 128]⟩
abbrev S128x3x128x4x128 : Shape := ⟨5, ![128, 3, 128, 4, 128]⟩
abbrev S128x3x512x128 : Shape := ⟨4, ![128, 3, 512, 128]⟩
abbrev S128x3x512x128x4 : Shape := ⟨5, ![128, 3, 512, 128, 4]⟩
abbrev S128x3x512x512 : Shape := ⟨4, ![128, 3, 512, 512]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S128x49152, .f32⟩
  | .hbm, ⟨1, _⟩ => ⟨S128x3x128x128, .f32⟩
  | .hbm, ⟨2, _⟩ => ⟨S128x3x128x4x128, .f32⟩
  | .hbm, ⟨3, _⟩ => ⟨S128x3x512x128, .f32⟩
  | .hbm, ⟨4, _⟩ => ⟨S128x3x512x128x4, .f32⟩
  | .hbm, ⟨5, _⟩ => ⟨S128x3x512x512, .f32⟩
  | .hbm, ⟨6, _⟩ => ⟨S_, .f32⟩
  | .hbm, ⟨7, _⟩ => ⟨S128x3x512x512, .f32⟩
  | .hbm, ⟨8, _⟩ => ⟨S128x3x512x512, .f32⟩
  | _, _ => ⟨S128x49152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  shapeCasts_S128x49152_S128x3x128x128 : S128x49152.ShapeCasts S128x3x128x128
  bcast_S128x3x128x128_S128x3x128x4x128_0_1_2_4 : S128x3x128x128.BroadcastsInDim S128x3x128x4x128 (![0, 1, 2, 4] : Fin 4 → Fin S128x3x128x4x128.rank)
  shapeCasts_S128x3x128x4x128_S128x3x512x128 : S128x3x128x4x128.ShapeCasts S128x3x512x128
  bcast_S128x3x512x128_S128x3x512x128x4_0_1_2_3 : S128x3x512x128.BroadcastsInDim S128x3x512x128x4 (![0, 1, 2, 3] : Fin 4 → Fin S128x3x512x128x4.rank)
  shapeCasts_S128x3x512x128x4_S128x3x512x512 : S128x3x512x128x4.ShapeCasts S128x3x512x512
  bcast_S_S128x3x512x512 : S_.BroadcastsInDim S128x3x512x512 (![] : Fin 0 → Fin S128x3x512x512.rank)

variable [Facts₀]

class Facts : Prop extends Facts₀ where

variable [Facts]
-- ==== Proof.Upsample.lean ====
/-
  The function both programs compute. The input z : [128, 49152] is 128 images of 3 planes of 128 x 128 pixels, a row of z
  holding an image plane after plane, each plane row after row. The result [128, 3, 512, 512] repeats every pixel four times
  along each spatial axis and scales it by one quarter: entry (b, c, I, J) is a quarter of z at row b, column
  c * 16384 + (I / 4) * 128 + J / 4.

  The kernel works on the 384 planes as one array [384, 128, 128] (the rows of z cut into planes, which keeps the row-major
  order) and produces [384, 512, 512], which is then cut back into images. `planes` is that middle function, `upsample` the
  whole one, and `reshape_planes_reshape` says the two row-major re-cuttings around `planes` give `upsample`.
-/
import Idealize.ShloMosaic.PureOps
import Idealize.ShloMosaic.Lib.ValueIdx
import Idealize.ShloMosaic.Lib.Pipeline.Value

noncomputable section

namespace Cert.Upsample

open Idealize.ShloMosaic Idealize.ShloMosaic.ValueIdx

variable {F : FTy → Type} [FloatOps F]

/-- One quarter: the f32 word both programs print for `1.0 / 4`. -/
abbrev quarter : F .f32 := FloatOps.ofBits .f32 0x3E800000#32

/-- A coordinate of the 512-grid falls in cell `I / 4` of the 128-grid. -/
def cell (I : Fin 512) : Fin 128 := ⟨I.val / 4, by omega⟩

theorem cell_val (I : Fin 512) : (cell I).val = I.val / 4 := rfl

/-- ... and at place `I % 4` inside that cell. -/
def rem4 (I : Fin 512) : Fin 4 := ⟨I.val % 4, by omega⟩

theorem rem4_val (I : Fin 512) : (rem4 I).val = I.val % 4 := rfl

/-- The column of z that holds pixel (I / 4, J / 4) of plane c. -/
def srcCol (c : Fin 3) (I J : Fin 512) : Fin 49152 :=
  ⟨c.val * 16384 + (I.val / 4) * 128 + J.val / 4, by omega⟩

theorem srcCol_val (c : Fin 3) (I J : Fin 512) : (srcCol c I J).val = c.val * 16384 + (I.val / 4) * 128 + J.val / 4 := rfl

/-- Entry (n, I, J) of the upsampled planes: a quarter of plane n's pixel (I / 4, J / 4). -/
def planeAt (x : (⟨3, ![384, 128, 128]⟩ : Shape).Idx → F .f32) (n : Fin 384) (I J : Fin 512) : F .f32 :=
  FloatOps.mulf (x (ix3 n (cell I) (cell J))) quarter

/-- The 384 planes, each upsampled four times along both axes and scaled by a quarter. -/
def planes (x : (⟨3, ![384, 128, 128]⟩ : Shape).Idx → F .f32) : (⟨3, ![384, 512, 512]⟩ : Shape).Idx → F .f32 :=
  fun j => planeAt x ⟨(j 0).val, (j 0).isLt⟩ ⟨(j 1).val, (j 1).isLt⟩ ⟨(j 2).val, (j 2).isLt⟩

theorem planes_ix3 (x : (⟨3, ![384, 128, 128]⟩ : Shape).Idx → F .f32) (n : Fin 384) (I J : Fin 512) :
    planes x (ix3 n I J) = planeAt x n I J := rfl

/-- Entry (b, c, I, J) of the result: a quarter of z at row b, column `srcCol c I J`. -/
def pixel (z : (⟨2, ![128, 49152]⟩ : Shape).Idx → F .f32) (b : Fin 128) (c : Fin 3) (I J : Fin 512) : F .f32 :=
  FloatOps.mulf (z (ix2 b (srcCol c I J))) quarter

/-- The whole result as a function of z. -/
def upsample (z : (⟨2, ![128, 49152]⟩ : Shape).Idx → F .f32) : (⟨4, ![128, 3, 512, 512]⟩ : Shape).Idx → F .f32 :=
  fun j => pixel z ⟨(j 0).val, (j 0).isLt⟩ ⟨(j 1).val, (j 1).isLt⟩ ⟨(j 2).val, (j 2).isLt⟩ ⟨(j 3).val, (j 3).isLt⟩

theorem upsample_ix4 (z : (⟨2, ![128, 49152]⟩ : Shape).Idx → F .f32) (b : Fin 128) (c : Fin 3) (I J : Fin 512) :
    upsample z (ix4 b c I J) = pixel z b c I J := rfl

/-- Plane c of image b is plane 3 b + c of the 384. -/
def planeOf (b : Fin 128) (c : Fin 3) : Fin 384 := ⟨b.val * 3 + c.val, by omega⟩

/-- Cutting z into 384 planes, upsampling the planes, and cutting the result into 128 images of 3 planes is `upsample`:
    both cuts keep the row-major position, so image b's plane c is plane 3 b + c, and that plane's pixel (I / 4, J / 4)
    sits in row b of z at column c * 16384 + (I / 4) * 128 + J / 4. -/
theorem reshape_planes_reshape (z : (⟨2, ![128, 49152]⟩ : Shape).Idx → F .f32)
    (h1 : (⟨2, ![128, 49152]⟩ : Shape).ShapeCasts ⟨3, ![384, 128, 128]⟩)
    (h2 : (⟨3, ![384, 512, 512]⟩ : Shape).ShapeCasts ⟨4, ![128, 3, 512, 512]⟩) :
    shapeCast ⟨4, ![128, 3, 512, 512]⟩ (planes (shapeCast ⟨3, ![384, 128, 128]⟩ z h1)) h2 = upsample z := by
  funext i
  obtain ⟨b, c, I, J, rfl⟩ : ∃ (b : Fin 128) (c : Fin 3) (I J : Fin 512), i = ix4 b c I J := ⟨i 0, i 1, i 2, i 3, eq_ix4 i⟩
  rw [upsample_ix4]
  refine (shapeCast_apply _ h2 (ix4 b c I J) (ix3 (planeOf b c) I J) ?_).trans ?_
  · rw [Shape.rowMajor_val_three, Shape.rowMajor_val_four]
    show ((b.val * 3 + c.val) * 512 + I.val) * 512 + J.val = ((b.val * 3 + c.val) * 512 + I.val) * 512 + J.val
    rfl
  rw [planes_ix3]
  unfold planeAt pixel
  refine congrArg (fun v => FloatOps.mulf v quarter) ?_
  refine shapeCast_apply z h1 (ix3 (planeOf b c) (cell I) (cell J)) (ix2 b (srcCol c I J)) ?_
  rw [Shape.rowMajor_val_two, Shape.rowMajor_val_three]
  show b.val * 49152 + (c.val * 16384 + (I.val / 4) * 128 + J.val / 4) = ((b.val * 3 + c.val) * 128 + I.val / 4) * 128 + J.val / 4
  omega

end Cert.Upsample

end
-- ==== Proof.RefValue.lean ====
/-
  The reference's run is `upsample`. The reference repeats along the height by broadcasting [128,3,128,128] to
  [128,3,128,4,128] and merging axes 2 and 3, then along the width by broadcasting [128,3,512,128] to [128,3,512,128,4]
  and merging axes 3 and 4, and multiplies by a quarter. Read backwards from an entry (b, c, I, J) of the result: the last
  merge splits J into (J / 4, J % 4), the broadcast drops J % 4; the first merge splits I into (I / 4, I % 4), the
  broadcast drops I % 4; and the first reshape finds pixel (I / 4, J / 4) of plane c of image b at column
  c * 16384 + (I / 4) * 128 + J / 4 of row b.
-/
import proofs.«157498_j34308198761077_1_alg».proof.Proof.Gen.ReferenceIdeal.Read
import proofs.«157498_j34308198761077_1_alg».proof.Proof.Upsample

noncomputable section

namespace Cert.ReferenceIdeal.RefValue

open Cert.ReferenceIdeal Cert.ReferenceIdeal.Read Idealize.ShloMosaic Idealize.ShloMosaic.ValueIdx Cert.Upsample

variable {F : FTy → Type} [FloatOps F]

/-- The width merge, backwards: column J of 512 is place J % 4 of cell J / 4. -/
theorem split_width (b : Fin 128) (c : Fin 3) (I J : Fin 512) :
    idx_main_v4 (ix4 b c I J) = ix5 b c I (cell J) (rem4 J) := by
  have hb := b.isLt; have hc := c.isLt; have hI := I.isLt; have hJ := J.isLt
  funext a; apply Fin.ext
  match a with
  | ⟨0, _⟩ => show (((b.val * 3 + c.val) * 512 + I.val) * 512 + J.val) / 786432 = b.val; omega
  | ⟨1, _⟩ => show (((b.val * 3 + c.val) * 512 + I.val) * 512 + J.val) / 262144 % 3 = c.val; omega
  | ⟨2, _⟩ => show (((b.val * 3 + c.val) * 512 + I.val) * 512 + J.val) / 512 % 512 = I.val; omega
  | ⟨3, _⟩ => show (((b.val * 3 + c.val) * 512 + I.val) * 512 + J.val) / 4 % 128 = J.val / 4; omega
  | ⟨4, _⟩ => show (((b.val * 3 + c.val) * 512 + I.val) * 512 + J.val) % 4 = J.val % 4; omega

/-- The width broadcast, backwards: the place inside the cell is dropped. -/
theorem drop_width (b : Fin 128) (c : Fin 3) (I : Fin 512) (w : Fin 128) (r : Fin 4) :
    idx_main_v3 (ix5 b c I w r) = ix4 b c I w := by
  funext a; apply Fin.ext
  match a with
  | ⟨0, _⟩ => rfl
  | ⟨1, _⟩ => rfl
  | ⟨2, _⟩ => rfl
  | ⟨3, _⟩ => rfl

/-- The height merge, backwards: row I of 512 is place I % 4 of cell I / 4. -/
theorem split_height (b : Fin 128) (c : Fin 3) (I : Fin 512) (w : Fin 128) :
    idx_main_v2 (ix4 b c I w) = ix5 b c (cell I) (rem4 I) w := by
  have hb := b.isLt; have hc := c.isLt; have hI := I.isLt; have hw := w.isLt
  funext a; apply Fin.ext
  match a with
  | ⟨0, _⟩ => show (((b.val * 3 + c.val) * 512 + I.val) * 128 + w.val) / 196608 = b.val; omega
  | ⟨1, _⟩ => show (((b.val * 3 + c.val) * 512 + I.val) * 128 + w.val) / 65536 % 3 = c.val; omega
  | ⟨2, _⟩ => show (((b.val * 3 + c.val) * 512 + I.val) * 128 + w.val) / 512 % 128 = I.val / 4; omega
  | ⟨3, _⟩ => show (((b.val * 3 + c.val) * 512 + I.val) * 128 + w.val) / 128 % 4 = I.val % 4; omega
  | ⟨4, _⟩ => show (((b.val * 3 + c.val) * 512 + I.val) * 128 + w.val) % 128 = w.val; omega

/-- The height broadcast, backwards: the place inside the cell is dropped. -/
theorem drop_height (b : Fin 128) (c : Fin 3) (h : Fin 128) (r : Fin 4) (w : Fin 128) :
    idx_main_v1 (ix5 b c h r w) = ix4 b c h w := by
  funext a; apply Fin.ext
  match a with
  | ⟨0, _⟩ => rfl
  | ⟨1, _⟩ => rfl
  | ⟨2, _⟩ => rfl
  | ⟨3, _⟩ => rfl

/-- The first reshape, backwards: pixel (I / 4, J / 4) of plane c of image b is in row b of z at `srcCol c I J`. -/
theorem find_pixel (b : Fin 128) (c : Fin 3) (I J : Fin 512) :
    idx_main_v0 (ix4 b c (cell I) (cell J)) = ix2 b (srcCol c I J) := by
  have hb := b.isLt; have hc := c.isLt; have hI := I.isLt; have hJ := J.isLt
  funext a; apply Fin.ext
  match a with
  | ⟨0, _⟩ => show (((b.val * 3 + c.val) * 128 + I.val / 4) * 128 + J.val / 4) / 49152 = b.val; omega
  | ⟨1, _⟩ => show (((b.val * 3 + c.val) * 128 + I.val / 4) * 128 + J.val / 4) % 49152 = c.val * 16384 + (I.val / 4) * 128 + J.val / 4; omega

/-- The reference's result, stage by stage, is `upsample` of its argument. -/
theorem result_eq (x0 : (⟨S128x49152, .f32⟩ : BufTy).Contents (Elt F)) :
    val_main_v6 (F := F) x0 = upsample x0 := by
  funext i
  obtain ⟨b, c, I, J, rfl⟩ : ∃ (b : Fin 128) (c : Fin 3) (I J : Fin 512), i = ix4 b c I J := ⟨i 0, i 1, i 2, i 3, eq_ix4 i⟩
  rw [val_main_v6_apply, val_main_v4_apply, split_width, val_main_v3_apply, drop_width, val_main_v2_apply, split_height,
    val_main_v1_apply, drop_height, val_main_v0_apply, find_pixel, val_main_v5_apply, val_main_cst_apply]
  rfl

end Cert.ReferenceIdeal.RefValue

end
-- ==== Proof.KernelBlock.lean ====
/-
  The kernel body on one block. The body loads two planes x : [2, 128, 128] and stores [2, 512, 512]. It repeats along the
  width by viewing x as [2,128,128,1], broadcasting the unit axis to 4 and merging the last two axes into 512; then along
  the height by viewing that as [2,128,1,512], broadcasting the unit axis to 4 and merging axes 1 and 2 into 512; and
  multiplies by a quarter. Read backwards from an entry (g, I, J) of the stored block: the height merge splits I into
  (I / 4, I % 4) and the broadcast drops I % 4; the width merge splits J into (J / 4, J % 4) and the broadcast drops
  J % 4. So the entry is a quarter of x at (g, I / 4, J / 4).
-/
import proofs.«157498_j34308198761077_1_alg».proof.Proof.Gen.KernelIdeal.Skeleton
import proofs.«157498_j34308198761077_1_alg».proof.Proof.Upsample
import Idealize.ShloMosaic.Lib.Pipeline.Value

noncomputable section

namespace Cert.KernelIdeal.Block

open Cert.KernelIdeal Cert.KernelIdeal.Gen Idealize.ShloMosaic Idealize.ShloMosaic.ValueIdx Cert.Upsample

variable {F : FTy → Type} [FloatOps F]

/-- The stored value at entry (g, I, J) of the block is a quarter of the loaded planes at (g, I / 4, J / 4). -/
theorem payload_apply (x0 : Vec F S2x128x128 .f32) (g : Fin 2) (I J : Fin 512) :
    k0_pay1 x0 (ix3 g I J) = FloatOps.mulf (x0 (ix3 g (cell I) (cell J))) quarter := by
  have hg := g.isLt; have hI := I.isLt; have hJ := J.isLt
  unfold k0_pay1
  refine congrArg (fun v => FloatOps.mulf v quarter) ?_
  -- the height merge: row I of 512 is place I % 4 of cell I / 4
  refine (shapeCast_apply _ _ (ix3 g I J) (ix4 g (cell I) (rem4 I) J) ?_).trans ?_
  · rw [Shape.rowMajor_val_four, Shape.rowMajor_val_three]
    show ((g.val * 128 + I.val / 4) * 4 + I.val % 4) * 512 + J.val = (g.val * 512 + I.val) * 512 + J.val
    omega
  -- the height broadcast drops the place inside the cell
  refine (broadcastTo_apply _ _ (ix4 g (cell I) (rem4 I) J) (ix4 g (cell I) (0 : Fin 1) J) (fun a => ?_)).trans ?_
  · match a with
    | ⟨0, _⟩ => rfl
    | ⟨1, _⟩ => rfl
    | ⟨2, _⟩ => rfl
    | ⟨3, _⟩ => rfl
  rw [shapeCast_self]
  -- the unit axis in the middle goes away
  refine (shapeCast_apply _ _ (ix4 g (cell I) (0 : Fin 1) J) (ix3 g (cell I) J) ?_).trans ?_
  · rw [Shape.rowMajor_val_three, Shape.rowMajor_val_four]
    show (g.val * 128 + I.val / 4) * 512 + J.val = ((g.val * 128 + I.val / 4) * 1 + 0) * 512 + J.val
    omega
  -- the width merge: column J of 512 is place J % 4 of cell J / 4
  refine (shapeCast_apply _ _ (ix3 g (cell I) J) (ix4 g (cell I) (cell J) (rem4 J)) ?_).trans ?_
  · rw [Shape.rowMajor_val_four, Shape.rowMajor_val_three]
    show ((g.val * 128 + I.val / 4) * 128 + J.val / 4) * 4 + J.val % 4 = (g.val * 128 + I.val / 4) * 512 + J.val
    omega
  -- the width broadcast drops the place inside the cell
  refine (broadcastTo_apply _ _ (ix4 g (cell I) (cell J) (rem4 J)) (ix4 g (cell I) (cell J) (0 : Fin 1)) (fun a => ?_)).trans ?_
  · match a with
    | ⟨0, _⟩ => rfl
    | ⟨1, _⟩ => rfl
    | ⟨2, _⟩ => rfl
    | ⟨3, _⟩ => rfl
  rw [shapeCast_self]
  -- the trailing unit axis goes away
  refine (shapeCast_apply _ _ (ix4 g (cell I) (cell J) (0 : Fin 1)) (ix3 g (cell I) (cell J)) ?_).trans ?_
  · rw [Shape.rowMajor_val_three, Shape.rowMajor_val_four]
    show (g.val * 128 + I.val / 4) * 128 + J.val / 4 = ((g.val * 128 + I.val / 4) * 128 + J.val / 4) * 1 + 0
    omega
  rw [shapeCast_self]

end Cert.KernelIdeal.Block

end
-- ==== Proof.KernelValue.lean ====
/-
  The kernel's run, read as a value. The region works on the 384 planes two at a time: grid point t stages planes 2 t and
  2 t + 1 of the input [384, 128, 128] and writes back planes 2 t and 2 t + 1 of the output [384, 512, 512]. What point t
  writes back is block t of `planes` of the input array (`flushed_eq`): entry (g, I, J) of the block is array entry
  (2 t + g, I, J), and the body put there a quarter of the staged block at (g, I / 4, J / 4), which is array entry
  (2 t + g, I / 4, J / 4). Plane n lies in the block of point n / 2, so the blocks cover the output (`cover`) and the
  output array ends as `planes` of the input array (`region_out`). The host cuts z into the planes before the region and
  cuts the output into images after it; with `reshape_planes_reshape` the result is `upsample z` (`run`).
-/
import proofs.«157498_j34308198761077_1_alg».proof.Proof.Gen.KernelIdeal.Frame
import proofs.«157498_j34308198761077_1_alg».proof.Proof.KernelBlock
import Idealize.ShloMosaic.Lib.Pipeline.Value
import Idealize.ShloMosaic.Lib.StableHlo.Run

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx Cert.Upsample
open Idealize.ShloMosaic.Pipeline (Dat)

variable {F : FTy → Type} [FloatOps F]
variable (m : (ℓ : Loc nD τ sig) → Buf (Elt F) ℓ) (ρ : Dev nD → PrngReg)

theorem zero_offsets : (![0, 0, 0] : Fin 3 → Nat) = fun _ => 0 := funext fun a => by fin_cases a <;> rfl

/-- Both windows move along the plane axis only: at point t the block index is (t, 0, 0). -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

theorem point_lt (t : Fin cfg0.N) : t.val < 192 := lt_of_lt_of_eq t.isLt N_0

/-- Plane g of the block of point t is plane 2 t + g of the array. -/
def planeAtPoint (t : Fin cfg0.N) (g : Fin 2) : Fin 384 := ⟨t.val * 2 + g.val, by have := point_lt t; omega⟩

/-- The staged input block at (g, h, w) is the input array at (2 t + g, h, w). -/
theorem in_block_apply (c : Dev nD) (t : Fin cfg0.N) (g : Fin 2) (h w : Fin 128) :
    iblk m c 0 t (ix3 g h w) = V m c main_v0 (ix3 (planeAtPoint t g) h w) := by
  obtain ⟨e0, e1, e2, -, -, -⟩ := block_index t
  show V m c main_v0 (((cfg0.win 0).blk t).view.emb (ix3 g h w)) = V m c main_v0 (ix3 (planeAtPoint t g) h w)
  refine congrArg (V m c main_v0) ?_
  funext a; apply Fin.ext
  match a with
  | ⟨0, _⟩ => show win0_0.index t (0 : Fin 3) * 2 + 1 * g.val = t.val * 2 + g.val; omega
  | ⟨1, _⟩ => show win0_0.index t (1 : Fin 3) * 128 + 1 * h.val = h.val; omega
  | ⟨2, _⟩ => show win0_0.index t (2 : Fin 3) * 128 + 1 * w.val = w.val; omega

/-- Entry (g, I, J) of the output block of point t is array entry (2 t + g, I, J). -/
theorem out_block_emb (t : Fin cfg0.N) (g : Fin 2) (I J : Fin 512) :
    ((cfg0.win 1).blk t).view.emb (ix3 g I J) = ix3 (planeAtPoint t g) I J := by
  obtain ⟨-, -, -, e3, e4, e5⟩ := block_index t
  funext a; apply Fin.ext
  match a with
  | ⟨0, _⟩ => show win0_1.index t (0 : Fin 3) * 2 + 1 * g.val = t.val * 2 + g.val; omega
  | ⟨1, _⟩ => show win0_1.index t (1 : Fin 3) * 512 + 1 * I.val = I.val; omega
  | ⟨2, _⟩ => show win0_1.index t (2 : Fin 3) * 512 + 1 * J.val = J.val; omega

/-- What point t writes back is block t of `planes` of the input array. -/
theorem flushed_eq (c : Dev nD) (t : Fin cfg0.N) :
    (dats m 0 c).flushed 1 t = ((cfg0.win 1).blk t).view.read (Elt F) (planes (V m c main_v0)) := by
  show (cfg0.win 1).cut (grid0.coords t) ((dats m 0 c).after 1 t) = _
  rw [after0_1]
  unfold out0_1
  rw [View.canon_unit_zero zero_offsets]
  simp only [View.ld_unit_zero (S := S2x128x128) zero_offsets]
  funext j
  obtain ⟨g, I, J, rfl⟩ : ∃ (g : Fin 2) (I J : Fin 512), j = ix3 g I J := ⟨j 0, j 1, j 2, eq_ix3 j⟩
  show k0_pay1 (iblk m c 0 t) (ix3 g I J) = planes (V m c main_v0) (((cfg0.win 1).blk t).view.emb (ix3 g I J))
  rw [out_block_emb, planes_ix3]
  refine (Block.payload_apply (iblk m c 0 t) g I J).trans ?_
  unfold planeAt
  rw [in_block_apply]

/-- An index of the output array is in point t's block iff each coordinate is in the block's range on its axis. -/
theorem mem_block (t : Fin cfg0.N) (i : S384x512x512.Idx) :
    i ∈ ((cfg0.win 1).blk t).view.set ↔ ∀ a : Fin 3, win0_1.index t a * S2x512x512.size a ≤ (i a).val ∧ (i a).val < win0_1.index t a * S2x512x512.size a + S2x512x512.size a := by
  show i ∈ ((View.whole main_v1).slice (win0_1.rect t)).set ↔ _
  rw [View.set_slice_whole, Rect.mem_set_unit]
  exact Iff.rfl

/-- Plane n of the output lies in the block of point n / 2: every index is covered. -/
theorem cover (i : S384x512x512.Idx) :
    ∃ t : Fin cfg0.N, (cfg0.win 1).flush t = true ∧ i ∈ ((cfg0.win 1).blk t).view.set := by
  have h0 : (i 0).val < 384 := (i 0).isLt
  have h1 : (i 1).val < 512 := (i 1).isLt
  have h2 : (i 2).val < 512 := (i 2).isLt
  have hN : cfg0.N = 192 := N_0
  let t : Fin cfg0.N := ⟨(i 0).val / 2, by rw [hN]; omega⟩
  obtain ⟨-, -, -, e3, e4, e5⟩ := block_index t
  have ht : t.val = (i 0).val / 2 := rfl
  refine ⟨t, flush0_1 t, ?_⟩
  rw [mem_block]
  intro a
  match a with
  | ⟨0, _⟩ => show win0_1.index t (0 : Fin 3) * 2 ≤ (i 0).val ∧ (i 0).val < win0_1.index t (0 : Fin 3) * 2 + 2; omega
  | ⟨1, _⟩ => show win0_1.index t (1 : Fin 3) * 512 ≤ (i 1).val ∧ (i 1).val < win0_1.index t (1 : Fin 3) * 512 + 512; omega
  | ⟨2, _⟩ => show win0_1.index t (2 : Fin 3) * 512 ≤ (i 2).val ∧ (i 2).val < win0_1.index t (2 : Fin 3) * 512 + 512; omega

/-- The output array after the region is `planes` of the input array. -/
theorem region_out (c : Dev nD) : (dats m 0 c).arrAt 1 cfg0.N = planes (V m c main_v0) :=
  (dats m 0 c).arrAt_eq_of_cover 1 (planes (V m c main_v0)) (fun t _ => flushed_eq m c t) cover

/-- The input array as the region finds it: z cut into the 384 planes. -/
theorem input_planes (c : Dev nD) :
    (V m c main_v0 : S384x128x128.Idx → Elt F .f32)
      = shapeCast S384x128x128 (m ((c : Thread nD τ).loc main_arg0)) shapeCasts_S128x49152_S384x128x128 := by
  show StableHlo.after hostOps0 (fun b => m (c, b)) (Proc.devRef .tc main_v0) = _
  after_results
  rfl

/-- The result buffer after the host's last reshape: the region's output cut into 128 images of 3 planes. -/
theorem tail_out (c : Dev nD) :
    Pipeline.afterTail₀ cfgs (dats m) 0 (V0 m) [hostOps1] c main_v2
      = shapeCast S128x3x512x512 (planes (V m c main_v0)) shapeCasts_S384x512x512_S128x3x512x512 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = planes (V m c main_v0) :=
    (Pipeline.withArrays_arr spec0 launch0.win.arr_inj c _ _ 1).trans (region_out m c)
  rw [e]
  rfl

/-- The result buffer is `upsample` of z. -/
theorem result_eq (c : Dev nD) :
    Pipeline.afterTail₀ cfgs (dats m) 0 (V0 m) [hostOps1] c main_v2 = upsample (m ((c : Thread nD τ).loc main_arg0)) := by
  rw [tail_out, input_planes]
  exact reshape_planes_reshape _ _ _

/-- Every weakly fair execution of the kernel's program terminates with the result at `upsample z` and z unchanged. -/
theorem run : θ_run defs (onTc (τ := τ) (main (F := F))) ⟨m, fun _ => 0, ρ⟩ fun r => ∀ c : Dev nD,
      r.2.mem ((c : Thread nD τ).loc main_v2) = upsample (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_eq m c),
        ((h c).2 main_arg0 (Pipeline.mem_restRefs_of main_arg0 (by decide) (by decide))).trans (W_main_arg0 m (dats m) c)⟩)
    (run_main m ρ)

end Cert.KernelIdeal.RegionValue

end
-- ==== Proof.lean ====
/-
  The kernel and the reference compute one function of z : [128, 49152], read as 128 images of 3 planes of 128 x 128
  pixels: every pixel repeated four times along each spatial axis and scaled by one quarter (`Cert.Upsample.upsample`,
  Proof/Upsample.lean). Entry (b, c, I, J) of the result is a quarter of z at row b, column
  c * 16384 + (I / 4) * 128 + J / 4.

  The reference gets there by two broadcasts, each followed by a merge of two axes, then the product with a quarter
  (Proof/RefValue.lean, over its generated run read one operation at a time). The kernel cuts z into 384 planes, upsamples
  them two at a time (Proof/KernelBlock.lean: one block; Proof/KernelValue.lean: the blocks cover the output array), and
  cuts the output into images. Both sides multiply by the same f32 word, so no law of the extended reals is needed and
  the precondition is never opened: the two results are the same term of z.

  The three frames are the generated ones (the reference's is its generated run with the result dropped), and the ideal
  pass rewrote nothing, so `preserves` is `True`.
-/
import proofs.«157498_j34308198761077_1_alg».proof.Defs
import proofs.«157498_j34308198761077_1_alg».proof.Proof.Gen.Kernel
import proofs.«157498_j34308198761077_1_alg».proof.Proof.Gen.Kernel.Frame
import proofs.«157498_j34308198761077_1_alg».proof.Proof.Gen.KernelIdeal
import proofs.«157498_j34308198761077_1_alg».proof.Proof.Gen.KernelIdeal.Frame
import proofs.«157498_j34308198761077_1_alg».proof.Proof.Gen.ReferenceIdeal
import proofs.«157498_j34308198761077_1_alg».proof.Proof.Gen.ReferenceIdeal.Run
import proofs.«157498_j34308198761077_1_alg».proof.Proof.Gen.ReferenceIdeal.Read
import proofs.«157498_j34308198761077_1_alg».proof.Proof.Gen.Pre_finite_inputs
import proofs.«157498_j34308198761077_1_alg».proof.Proof.RefValue
import proofs.«157498_j34308198761077_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on z, the kernel's program ends with its result at `upsample z` and the reference's run
    ends at a term that is `upsample` of its own argument, which is z. -/
theorem algebraic : Cert.algebraic_KernelIdeal_ReferenceIdeal := by
  intro m ρ m' ρ' _ hagree
  refine ⟨_, Cert.KernelIdeal.RegionValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
